-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16 : Shape := ⟨2, ![131072, 16]⟩
abbrev S131072 : Shape := ⟨1, ![131072]⟩
abbrev S1000000x16 : Shape := ⟨2, ![1000000, 16]⟩
abbrev S1000000 : Shape := ⟨1, ![1000000]⟩
abbrev S_ : Shape := ⟨0, ![]⟩

class Facts : Prop where
  bcast_S_S131072x16 : S_.BroadcastsInDim S131072x16 (![] : Fin 0 → Fin S131072x16.rank)
  reducesTo_S131072x16_S_d0_1 : S131072x16.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_

variable [Facts]

def fn {F : FTy → Type} [FloatOps F] (main_arg0 : FVec F S131072x16 .f32) (main_arg1 : IVec S131072 32) (main_arg2 : FVec F S1000000x16 .f32) (main_arg3 : IVec S1000000 32) : IVec S_ 1 :=
  let main_v0 : FVec F S131072x16 .f32 := Host.absf main_arg0
  let main_cst : FVec F S_ .f32 := constant S_ .f32 0x7F800000#32
  let main_v1 : FVec F S131072x16 .f32 := broadcastInDim S131072x16 ![] bcast_S_S131072x16 main_cst
  let main_v2 : IVec S131072x16 1 := cmpf .olt main_v0 main_v1
  let main_c : IVec S_ 1 := constantI S_ 1 1#1
  let main_v3 : IVec S_ 1 := (fun x v => Host.reduce IntOp.andi x v reducesTo_S131072x16_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  main_v8
-- ==== Kernel.lean ====
abbrev S131072x16 : Shape := ⟨2, ![131072, 16]⟩
abbrev S131072 : Shape := ⟨1, ![131072]⟩
abbrev S1000000x16 : Shape := ⟨2, ![1000000, 16]⟩
abbrev S1000000 : Shape := ⟨1, ![1000000]⟩
abbrev S_ : Shape := ⟨0, ![]⟩
abbrev S131072x1 : Shape := ⟨2, ![131072, 1]⟩
abbrev S16x128 : Shape := ⟨2, ![16, 128]⟩
abbrev S2048x16 : Shape := ⟨2, ![2048, 16]⟩
abbrev S2048x1 : Shape := ⟨2, ![2048, 1]⟩
abbrev S8x128 : Shape := ⟨2, ![8, 128]⟩
abbrev S2048 : Shape := ⟨1, ![2048]⟩
abbrev S1 : Shape := ⟨1, ![1]⟩
abbrev S1x1 : Shape := ⟨2, ![1, 1]⟩

abbrev nBuf : Space → Nat
  | .hbm => 26
  | .vmem => 8
  | .smem => 0
  | _ => 0

abbrev bufTy : (tb : Table) → Fin (tcTables nBuf tb) → BufTy
  | .hbm, ⟨0, _⟩ => ⟨S131072x16, .f32⟩
  | .hbm, ⟨1, _⟩ => ⟨S131072, .i32⟩
  | .hbm, ⟨2, _⟩ => ⟨S1000000x16, .f32⟩
  | .hbm, ⟨3, _⟩ => ⟨S1000000, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x16, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072, .i32⟩
  | .hbm, ⟨22, _⟩ => ⟨S131072x1, .i32⟩
  | .hbm, ⟨23, _⟩ => ⟨S16x128, .f32⟩
  | .hbm, ⟨24, _⟩ => ⟨S_, .f32⟩
  | .hbm, ⟨25, _⟩ => ⟨S_, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x1, .i32⟩
  | .local _ .vmem, ⟨5, _⟩ => ⟨S2048x1, .i32⟩
  | .local _ .vmem, ⟨6, _⟩ => ⟨S8x128, .f32⟩
  | .local _ .vmem, ⟨7, _⟩ => ⟨S8x128, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  shapeCasts_S131072_S131072x1 : S131072.ShapeCasts S131072x1
  inb_S8x128_S8x128_0_0 : ∀ a, (![0, 0] : Fin 2 → Nat) a + S8x128.size a ≤ S8x128.size a
  h_S8x128 : 0 < S8x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x16_d1_w32 : S2048x16.Iotas .tc 32 [1]
  broadcasts_S2048x1_S2048x16 : S2048x1.Broadcasts S2048x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  reduces_S2048x16_S2048 : S2048x16.Reduces [1] S2048
  shapeCasts_S2048_S2048x1 : S2048.ShapeCasts S2048x1
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  shapeCasts_S8x128_S8x128 : S8x128.ShapeCasts S8x128
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  gather_S1000000x16_S131072x1_S131072x16_1_0_n_n_0_1_116_wf : GatherDims.WF S1000000x16 S131072x1 S131072x16 [1] [0] [] [0] [] 1 ![1, 16]
  gather_S1000000_S131072x1_S131072_n_0_n_n_0_1_1_wf : GatherDims.WF S1000000 S131072x1 S131072 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S131072x16.size a
  hwx0_0 : ∀ i : grid0.Coords, EltTy.bits .f32 = 32 ∨ (Rect.block (s := S131072x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S131072x16.size a
  hwx0_1 : ∀ i : grid0.Coords, EltTy.bits .f32 = 32 ∨ (Rect.block (s := S131072x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .i32 = 32 ∨ (Rect.block (s := S131072x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def gather_S1000000x16_S131072x1_S131072x16_1_0_n_n_0_1_116 : GatherDims S1000000x16 S131072x1 S131072x16 where
  offsetDims := [1]
  collapsedSliceDims := [0]
  operandBatchingDims := []
  startIndicesBatchingDims := []
  startIndexMap := [0]
  indexVectorDim := 1
  sliceSizes := ![1, 16]
  wf := gather_S1000000x16_S131072x1_S131072x16_1_0_n_n_0_1_116_wf
def gather_S1000000_S131072x1_S131072_n_0_n_n_0_1_1 : GatherDims S1000000 S131072x1 S131072 where
  offsetDims := []
  collapsedSliceDims := [0]
  operandBatchingDims := []
  startIndicesBatchingDims := []
  startIndexMap := [0]
  indexVectorDim := 1
  sliceSizes := ![1]
  wf := gather_S1000000_S131072x1_S131072_n_0_n_n_0_1_1_wf

abbrev win0_0 : Pipeline.Window sig grid0 :=
  Pipeline.Window.ofSpec (Memref.whole main_v6) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x16 : Shape := ⟨2, ![131072, 16]⟩
abbrev S131072 : Shape := ⟨1, ![131072]⟩
abbrev S1000000x16 : Shape := ⟨2, ![1000000, 16]⟩
abbrev S1000000 : Shape := ⟨1, ![1000000]⟩
abbrev S_ : Shape := ⟨0, ![]⟩
abbrev S131072x1 : Shape := ⟨2, ![131072, 1]⟩
abbrev S16 : Shape := ⟨1, ![16]⟩
abbrev S1x16 : Shape := ⟨2, ![1, 16]⟩

abbrev nBuf : Space → Nat
  | .hbm => 53
  | .vmem => 0
  | .smem => 0
  | _ => 0

abbrev bufTy : (tb : Table) → Fin (tcTables nBuf tb) → BufTy
  | .hbm, ⟨0, _⟩ => ⟨S131072x16, .f32⟩
  | .hbm, ⟨1, _⟩ => ⟨S131072, .i32⟩
  | .hbm, ⟨2, _⟩ => ⟨S1000000x16, .f32⟩
  | .hbm, ⟨3, _⟩ => ⟨S1000000, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x16, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072, .i32⟩
  | .hbm, ⟨22, _⟩ => ⟨S16, .i32⟩
  | .hbm, ⟨23, _⟩ => ⟨S1x16, .i32⟩
  | .hbm, ⟨24, _⟩ => ⟨S131072x1, .i32⟩
  | .hbm, ⟨25, _⟩ => ⟨S131072x16, .i32⟩
  | .hbm, ⟨26, _⟩ => ⟨S131072x16, .i32⟩
  | .hbm, ⟨27, _⟩ => ⟨S131072x16, .i1⟩
  | .hbm, ⟨28, _⟩ => ⟨S_, .f32⟩
  | .hbm, ⟨29, _⟩ => ⟨S_, .f32⟩
  | .hbm, ⟨30, _⟩ => ⟨S131072x16, .f32⟩
  | .hbm, ⟨31, _⟩ => ⟨S131072x16, .f32⟩
  | .hbm, ⟨32, _⟩ => ⟨S_, .f32⟩
  | .hbm, ⟨33, _⟩ => ⟨S131072, .f32⟩
  | .hbm, ⟨34, _⟩ => ⟨S_, .f32⟩
  | .hbm, ⟨35, _⟩ => ⟨S131072, .f32⟩
  | .hbm, ⟨36, _⟩ => ⟨S131072, .f32⟩
  | .hbm, ⟨37, _⟩ => ⟨S131072x1, .f32⟩
  | .hbm, ⟨38, _⟩ => ⟨S131072x16, .f32⟩
  | .hbm, ⟨39, _⟩ => ⟨S131072x16, .f32⟩
  | .hbm, ⟨40, _⟩ => ⟨S131072x16, .f32⟩
  | .hbm, ⟨41, _⟩ => ⟨S_, .f32⟩
  | .hbm, ⟨42, _⟩ => ⟨S131072, .f32⟩
  | .hbm, ⟨43, _⟩ => ⟨S131072x1, .f32⟩
  | .hbm, ⟨44, _⟩ => ⟨S131072x16, .f32⟩
  | .hbm, ⟨45, _⟩ => ⟨S131072x16, .f32⟩
  | .hbm, ⟨46, _⟩ => ⟨S131072x16, .f32⟩
  | .hbm, ⟨47, _⟩ => ⟨S_, .f32⟩
  | .hbm, ⟨48, _⟩ => ⟨S_, .f32⟩
  | .hbm, ⟨49, _⟩ => ⟨S131072x16, .f32⟩
  | .hbm, ⟨50, _⟩ => ⟨S131072x16, .f32⟩
  | .hbm, ⟨51, _⟩ => ⟨S_, .f32⟩
  | .hbm, ⟨52, _⟩ => ⟨S_, .f32⟩
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S131072x1_S131072x16_0_1 : S131072x1.BroadcastsInDim S131072x16 (![0, 1] : Fin 2 → Fin S131072x16.rank)
  bcast_S_S131072x16 : S_.BroadcastsInDim S131072x16 (![] : Fin 0 → Fin S131072x16.rank)
  reducesTo_S131072x16_S131072_d1 : S131072x16.ReducesTo [1] S131072
  h_S_ : 0 < S_.numel
  reducesTo_S131072x16_S_d0_1 : S131072x16.ReducesTo [0, 1] S_
  gather_S1000000x16_S131072x1_S131072x16_1_0_n_n_0_1_116_wf : GatherDims.WF S1000000x16 S131072x1 S131072x16 [1] [0] [] [0] [] 1 ![1, 16]
  gather_S1000000_S131072x1_S131072_n_0_n_n_0_1_1_wf : GatherDims.WF S1000000 S131072x1 S131072 [] [0] [] [0] [] 1 ![1]

variable [Facts₀]

def gather_S1000000x16_S131072x1_S131072x16_1_0_n_n_0_1_116 : GatherDims S1000000x16 S131072x1 S131072x16 where
  offsetDims := [1]
  collapsedSliceDims := [0]
  operandBatchingDims := []
  startIndicesBatchingDims := []
  startIndexMap := [0]
  indexVectorDim := 1
  sliceSizes := ![1, 16]
  wf := gather_S1000000x16_S131072x1_S131072x16_1_0_n_n_0_1_116_wf
def gather_S1000000_S131072x1_S131072_n_0_n_n_0_1_1 : GatherDims S1000000 S131072x1 S131072 where
  offsetDims := []
  collapsedSliceDims := [0]
  operandBatchingDims := []
  startIndicesBatchingDims := []
  startIndexMap := [0]
  indexVectorDim := 1
  sliceSizes := ![1]
  wf := gather_S1000000_S131072x1_S131072_n_0_n_n_0_1_1_wf

class Facts : Prop extends Facts₀ where

variable [Facts]
-- ==== Proof.Spec.lean ====
/-
  The mathematics both programs compute, stated once over plain functions on the extended reals.

  A row has sixteen candidate slots; its cardinality word `cd` says how many are valid (slot `j` is valid when
  `j < cd` as signed 32-bit words). Over the valid slots the row's weights are a softmax of the logits `w`,
  taken the numerically stable way: invalid slots are filled with `⊥` (minus infinity), the row maximum is
  subtracted, the exponentials are divided by their sum. The row's loss is the sum over the valid slots of
  `l j` times that weight, an invalid slot contributing `0`; the result of the whole program is the sum of
  the row losses over all 131072 rows.

  The kernel visits the rows in 64 blocks of 2048 consecutive rows, two groups of 32 blocks each accumulated
  in its own cell; the reference sums every entry at once. Addition on the extended reals is commutative and
  associative, so the two groupings give one value: `sum_rows_blocks`.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.RowSoftmaxLoss

open Idealize.ShloMosaic Idealize.ShloMosaic.ValueIdx

/-- The pattern `0xFF800000` is minus infinity: the bottom of the extended reals. -/
theorem ofBits_neg_inf : Ideal.ofBits .f32 0xFF800000#32 = (⊥ : EReal) := by
  simp [Ideal.ofBits, Ideal.ieee]

/-- Slot `j` of a row is a valid candidate when `j < cd`, compared as signed words. -/
def valid (cd : BitVec 32) (j : Fin 16) : BitVec 1 := IntOp.cmpi .slt (BitVec.ofNat 32 j.val) cd

/-- The row's logits with the invalid slots at minus infinity. -/
def logit (w : Fin 16 → EReal) (cd : BitVec 32) (j : Fin 16) : EReal := Scalar.select (valid cd j) (w j) ⊥

/-- The row maximum of the masked logits (`⊥` for a row with no valid slot). -/
def rowMax (w : Fin 16 → EReal) (cd : BitVec 32) : EReal := (Finset.univ : Finset (Fin 16)).fold max ⊥ (logit w cd)

/-- The shifted exponential of a slot: `exp (logit - max)`; an invalid slot of a row with a valid one gives `0`. -/
def expo (w : Fin 16 → EReal) (cd : BitVec 32) (j : Fin 16) : EReal := Ideal.exp (logit w cd j - rowMax w cd)

/-- The softmax denominator of the row. -/
def denom (w : Fin 16 → EReal) (cd : BitVec 32) : EReal := ∑ j : Fin 16, expo w cd j

/-- One slot's term of the row loss: `l j · softmax_j` on a valid slot, `0` on an invalid one. -/
def entry (w l : Fin 16 → EReal) (cd : BitVec 32) (j : Fin 16) : EReal :=
  Scalar.select (valid cd j) (l j * Ideal.div (expo w cd j) (denom w cd)) 0

/-- The row's loss. -/
def rowLoss (w l : Fin 16 → EReal) (cd : BitVec 32) : EReal := ∑ j : Fin 16, entry w l cd j

/-- Row `r` of block `n` among the 131072 rows: blocks are 2048 consecutive rows. -/
def blockRow (n : Fin 64) (r : Fin 2048) : Fin 131072 := ⟨2048 * n.val + r.val, by have := n.isLt; have := r.isLt; omega⟩

/-- A sum over all rows is the sum over the 64 blocks of the sums over each block's 2048 rows. -/
theorem sum_rows_blocks (g : Fin 131072 → EReal) : ∑ R : Fin 131072, g R = ∑ n : Fin 64, ∑ r : Fin 2048, g (blockRow n r) := by
  have e : Fin 64 × Fin 2048 ≃ Fin 131072 := (finProdFinEquiv : Fin 64 × Fin 2048 ≃ Fin (64 * 2048))
  have he : ∀ n r, (finProdFinEquiv : Fin 64 × Fin 2048 ≃ Fin (64 * 2048)) (n, r) = blockRow n r := fun n r =>
    Fin.ext (by show r.val + 2048 * n.val = 2048 * n.val + r.val; omega)
  calc ∑ R : Fin 131072, g R
      = ∑ p : Fin 64 × Fin 2048, g ((finProdFinEquiv : Fin 64 × Fin 2048 ≃ Fin (64 * 2048)) p) :=
        (Equiv.sum_comp (finProdFinEquiv : Fin 64 × Fin 2048 ≃ Fin (64 * 2048)) g).symm
    _ = ∑ n : Fin 64, ∑ r : Fin 2048, g ((finProdFinEquiv : Fin 64 × Fin 2048 ≃ Fin (64 * 2048)) (n, r)) :=
        Fintype.sum_prod_type _
    _ = ∑ n : Fin 64, ∑ r : Fin 2048, g (blockRow n r) := by simp only [he]

/-- The program's result over the gathered weight rows `W`, the losses `L` and the gathered cardinalities `C`:
    the sum of the row losses. -/
def total (W L : (⟨2, ![131072, 16]⟩ : Shape).Idx → EReal) (C : Fin 131072 → BitVec 32) : EReal :=
  ∑ R : Fin 131072, rowLoss (fun j => W (ix2 R j)) (fun j => L (ix2 R j)) (C R)

/-- The loss of block `n`: the sum of its 2048 rows' losses. -/
def blockLoss (W L : (⟨2, ![131072, 16]⟩ : Shape).Idx → EReal) (C : Fin 131072 → BitVec 32) (n : Fin 64) : EReal :=
  ∑ r : Fin 2048, rowLoss (fun j => W (ix2 (blockRow n r) j)) (fun j => L (ix2 (blockRow n r) j)) (C (blockRow n r))

/-- The total is the sum of the 64 block losses. -/
theorem total_eq_blocks (W L : (⟨2, ![131072, 16]⟩ : Shape).Idx → EReal) (C : Fin 131072 → BitVec 32) :
    total W L C = ∑ n : Fin 64, blockLoss W L C n :=
  sum_rows_blocks _

end Cert.RowSoftmaxLoss

end
-- ==== Proof.LibColumn.lean ====
/-
  Keepdims column forms read at an index, and a sum of a function that vanishes off two points.

  A row statistic of an `[a, b]` array (a row maximum, a row sum) is a length-`a` vector; a kernel keeps it as an
  `[a, 1]` column and broadcasts the column back along the rows. These lemmas read the three layout steps
  at an index built from coordinates: the cast `[a] → [a, 1]` reads row `r`, the broadcast `[a, 1] → [a, b]` reads
  the column at the same row, and the broadcast of a `[1, 1]` value to any rank-two shape reads its one entry.
-/
import Idealize.ShloMosaic.Lib.Pipeline.Value
import Idealize.ShloMosaic.Lib.ValueIdx
import Idealize.ShloMosaic.PureOps.Ideal.Laws

namespace Idealize.ShloMosaic.ColumnForms

open Idealize.ShloMosaic Idealize.ShloMosaic.ValueIdx

variable {α : Type}

/-- The cast of a length-`a` vector to an `[a, 1]` column, read at row `r`: the vector's entry `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) := by
  refine shapeCast_apply v h (ix2 r z) (ix1 r) ?_
  rw [Shape.rowMajor_val_one, Shape.rowMajor_val_two]
  have hz : z.val = 0 := by have := z.isLt; omega
  show r.val = r.val * 1 + z.val
  omega

/-- The broadcast of an `[a, 1]` column along the rows of an `[a, b]` array, read at `(r, j)`: the column at row `r`. -/
theorem broadcastTo_col_apply {a b : ℕ} (hb : b ≠ 1) (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r 0) := by
  by_cases ha : a = 1
  · subst ha
    refine broadcastTo_apply v h (ix2 r j) (ix2 r 0) fun c => ?_
    match c with
    | ⟨0, _⟩ => show r.val = if (1 : ℕ) = 1 then 0 else r.val; rw [if_pos rfl]; have := r.isLt; omega
    | ⟨1, _⟩ => show 0 = if (1 : ℕ) = 1 then 0 else j.val; rw [if_pos rfl]
  · refine broadcastTo_apply v h (ix2 r j) (ix2 r 0) fun c => ?_
    match c with
    | ⟨0, _⟩ => show r.val = if a = 1 then 0 else r.val; rw [if_neg ha]
    | ⟨1, _⟩ => show 0 = if (1 : ℕ) = 1 then 0 else j.val; rw [if_pos rfl]

/-- The broadcast of a `[1, 1]` value to an `[a, b]` array reads its one entry everywhere. -/
theorem broadcastTo_one_one_apply {a b : ℕ} (v : (⟨2, ![1, 1]⟩ : Shape).Idx → α)
    (h : (⟨2, ![1, 1]⟩ : Shape).Broadcasts ⟨2, ![a, b]⟩) (y : (⟨2, ![a, b]⟩ : Shape).Idx) :
    broadcastTo ⟨2, ![a, b]⟩ v h y = v (ix2 0 0) := by
  refine broadcastTo_apply v h y (ix2 0 0) fun c => ?_
  match c with
  | ⟨0, _⟩ => show 0 = if (1 : ℕ) = 1 then 0 else _; rw [if_pos rfl]
  | ⟨1, _⟩ => show 0 = if (1 : ℕ) = 1 then 0 else _; rw [if_pos rfl]

/-- The cast of a length-one vector to a `[1, 1]` value reads its one entry. -/
theorem shapeCast_one_one_apply (v : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ v h y = v (ix1 0) := by
  have h0 : (y 0).val < 1 := (y 0).isLt
  have h1 : (y 1).val < 1 := (y 1).isLt
  refine shapeCast_apply v h y (ix1 0) ?_
  rw [Shape.rowMajor_val_one, Shape.rowMajor_val_two]
  show 0 = (y 0).val * 1 + (y 1).val
  omega

/-! ## Row and column reductions of a rank-two array, read at a row, over the extended reals -/

/-- A lane sum over the columns of an `[a, b]` array, at row `r`: the sum of the row's entries. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ v acc h hφ hacc (ix1 r) = ∑ j : Fin b, v (ix2 r j) := by
  rw [Ideal.multiReduction_add_single]
  refine Finset.sum_congr rfl fun k _ => congrArg v (funext fun c => Fin.ext ?_)
  match c with
  | ⟨0, _⟩ => rfl
  | ⟨1, _⟩ => rfl

/-- A lane maximum over the columns of an `[a, b]` array, at row `r`: the fold of `max` over the row's entries
    from the accumulator's value. -/
theorem rowMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ v acc h hφ hacc (ix1 r)
      = (Finset.univ : Finset (Fin b)).fold max (Ideal.ofBits φ acc) (fun j => v (ix2 r j)) := by
  rw [Ideal.multiReduction_maximumf_single]
  refine congrArg (Finset.fold max _ · Finset.univ) (funext fun k => congrArg v (funext fun c => Fin.ext ?_))
  match c with
  | ⟨0, _⟩ => rfl
  | ⟨1, _⟩ => rfl

/-- A sublane sum down an `[a, 1]` column: the sum of its `a` entries. -/
theorem colSum_apply {a : ℕ} {φ : FTy} (v : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) :
    multiReduction .add [0] ⟨1, ![1]⟩ v acc h hφ hacc (ix1 0) = ∑ r : Fin a, v (ix2 r 0) := by
  rw [Ideal.multiReduction_add_single]
  refine Finset.sum_congr rfl fun k _ => congrArg v (funext fun c => Fin.ext ?_)
  match c with
  | ⟨0, _⟩ => rfl
  | ⟨1, _⟩ => rfl

/-- The host's maximum over the columns of an `[a, b]` array, at row `r`: the same fold, from the initial value. -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  rw [Host.reduce_eq_fold_single FloatOps.maximumf x init h' h hu]
  refine congrArg (Finset.fold max _ · Finset.univ) (funext fun k => congrArg x (funext fun c => Fin.ext ?_))
  match c with
  | ⟨0, _⟩ => rfl
  | ⟨1, _⟩ => rfl

/-- A function on a finite type that vanishes off two distinct points sums to its values there. -/
theorem sum_eq_two {ι : Type} [Fintype ι] [DecidableEq ι] (f : ι → EReal) (p q : ι) (hpq : p ≠ q)
    (h0 : ∀ i, i ≠ p → i ≠ q → f i = 0) : ∑ i, f i = f p + f q :=
  Finset.sum_eq_add p q hpq (fun i _ hi => h0 i hi.1 hi.2) (fun hp => absurd (Finset.mem_univ p) hp)
    (fun hq => absurd (Finset.mem_univ q) hq)

end Idealize.ShloMosaic.ColumnForms
-- ==== Proof.KernelBlock.lean ====
/-
  What the kernel's body computes from one block, read at an index over the extended reals.

  One grid point loads a block of 2048 rows: the gathered weights `x0`, the losses `x1` (both `[2048, 16]`) and the
  gathered cardinalities `x2` (a `[2048, 1]` column). Row by row it masks the slots past the cardinality, takes the
  masked softmax and the loss-weighted sum of the valid slots, and adds the 2048 row losses: the block's
  contribution is `∑ r, rowLoss (row r)` (`blockSum_eq`). The fill of the masked slots is the named constant,
  which denotes `⊥` here, as the reference's minus infinity does.

  The contribution is then added into the cell `(0, 0)` of the core's `[8, 128]` accumulator block and `0` is
  added everywhere else (`cell_update_apply`), the block having been reset to `0` at the first point of a core.
-/
import proofs.«416202_j58377195487799_3_alg».proof.Proof.Gen.KernelIdeal.Frame
import proofs.«416202_j58377195487799_3_alg».proof.Proof.Spec
import proofs.«416202_j58377195487799_3_alg».proof.Proof.LibColumn

noncomputable section

namespace Cert.KernelIdeal.BlockValue

open Cert.KernelIdeal Cert.KernelIdeal.Gen Idealize.ShloMosaic Idealize.ShloMosaic.ValueIdx
open Idealize.ShloMosaic.ColumnForms Cert.RowSoftmaxLoss

/-- The kernel's mask fill is named minus infinity: `⊥` at the ideal instance. -/
theorem neg_big_eq : Named.named (F := Ideal) κ "neg_big" (φ := .f32) 0xFF333332#32 = (⊥ : EReal) :=
  IdealRules.named_const.ideal_named_scalar _ _ _ _ rfl

section Stages

variable (x2 : Vec Ideal S2048x1 .i32) (x0 x1 : Vec Ideal S2048x16 .f32)

/-- Which slots of the block are valid: lane index below the row's cardinality. -/
def bMask : IVec S2048x16 1 :=
  cmpi .slt (iota .tc S2048x16 32 [1] iota_S2048x16_d1_w32)
    (broadcastTo S2048x16 (shapeCast S2048x1 x2 shapeCasts_S2048x1_S2048x1) broadcasts_S2048x1_S2048x16)

/-- The block's masked logits. -/
def bLogit : FVec Ideal S2048x16 .f32 :=
  select (bMask x2) (shapeCast S2048x16 x0 shapeCasts_S2048x16_S2048x16)
    (broadcast S2048x16 (Named.named κ "neg_big" 0xFF333332#32))

/-- The row maxima. -/
def bMax : FVec Ideal S2048 .f32 :=
  multiReduction .maximumf [1] S2048 (bLogit x2 x0) 0xFF800000#32 reduces_S2048x16_S2048 (.inl rfl) rfl

/-- The shifted exponentials. -/
def bExp : FVec Ideal S2048x16 .f32 :=
  exp (subf (bLogit x2 x0)
    (broadcastTo S2048x16 (shapeCast S2048x1 (bMax x2 x0) shapeCasts_S2048_S2048x1) broadcasts_S2048x1_S2048x16))

/-- The row denominators. -/
def bDen : FVec Ideal S2048 .f32 :=
  multiReduction .add [1] S2048 (bExp x2 x0) 0x00000000#32 reduces_S2048x16_S2048 (.inl rfl) rfl

/-- The per-slot terms of the row losses. -/
def bEntry : FVec Ideal S2048x16 .f32 :=
  select (bMask x2)
    (mulf x1 (divf (bExp x2 x0)
      (broadcastTo S2048x16 (shapeCast S2048x1 (bDen x2 x0) shapeCasts_S2048_S2048x1) broadcasts_S2048x1_S2048x16)))
    (broadcast S2048x16 (Scalar.ofBits .f32 0x00000000#32))

/-- The body's contribution payload is these stages composed, then summed along the lanes and down the rows. -/
theorem pay5_eq : k0_pay5 (F := Ideal) x2 x0 x1
    = shapeCast S1x1 (shapeCast S1x1 (multiReduction .add [0] S1
        (shapeCast S2048x1 (multiReduction .add [1] S2048 (bEntry x2 x0 x1) 0x00000000#32 reduces_S2048x16_S2048 (.inl rfl) rfl)
          shapeCasts_S2048_S2048x1) 0x00000000#32 reduces_S2048x1_S1 (.inl rfl) rfl) shapeCasts_S1_S1x1) shapeCasts_S1x1_S1x1 := rfl

theorem bMask_apply (r : Fin 2048) (j : Fin 16) : bMask x2 (ix2 r j) = valid (x2 (ix2 r 0)) j := by
  show IntOp.cmpi .slt (iota .tc S2048x16 32 [1] iota_S2048x16_d1_w32 (ix2 r j))
    (broadcastTo S2048x16 (shapeCast S2048x1 x2 shapeCasts_S2048x1_S2048x1) broadcasts_S2048x1_S2048x16 (ix2 r j)) = _
  rw [iota_single_apply, broadcastTo_col_apply (by decide), shapeCast_self]
  rfl

theorem bLogit_apply (r : Fin 2048) (j : Fin 16) :
    bLogit x2 x0 (ix2 r j) = logit (fun j => x0 (ix2 r j)) (x2 (ix2 r 0)) j := by
  show Scalar.select (bMask x2 (ix2 r j)) (shapeCast S2048x16 x0 shapeCasts_S2048x16_S2048x16 (ix2 r j))
    (Named.named (F := Ideal) κ "neg_big" (φ := .f32) 0xFF333332#32) = _
  rw [bMask_apply, shapeCast_self, neg_big_eq]
  rfl

theorem bMax_apply (r : Fin 2048) : bMax x2 x0 (ix1 r) = rowMax (fun j => x0 (ix2 r j)) (x2 (ix2 r 0)) := by
  unfold bMax
  refine (rowMax_apply (a := 2048) (b := 16) (bLogit x2 x0) _ reduces_S2048x16_S2048 _ _ r).trans ?_
  rw [ofBits_neg_inf]
  unfold rowMax
  exact congrArg (Finset.fold max _ · Finset.univ) (funext fun j => bLogit_apply x2 x0 r j)

theorem bExp_apply (r : Fin 2048) (j : Fin 16) :
    bExp x2 x0 (ix2 r j) = expo (fun j => x0 (ix2 r j)) (x2 (ix2 r 0)) j := by
  show Ideal.exp (bLogit x2 x0 (ix2 r j)
    - broadcastTo S2048x16 (shapeCast S2048x1 (bMax x2 x0) shapeCasts_S2048_S2048x1) broadcasts_S2048x1_S2048x16 (ix2 r j)) = _
  rw [bLogit_apply, broadcastTo_col_apply (by decide), shapeCast_col_apply, bMax_apply]
  rfl

theorem bDen_apply (r : Fin 2048) : bDen x2 x0 (ix1 r) = denom (fun j => x0 (ix2 r j)) (x2 (ix2 r 0)) := by
  unfold bDen
  refine (rowSum_apply (a := 2048) (b := 16) (bExp x2 x0) _ reduces_S2048x16_S2048 _ _ r).trans ?_
  exact Finset.sum_congr rfl fun j _ => bExp_apply x2 x0 r j

theorem bEntry_apply (r : Fin 2048) (j : Fin 16) :
    bEntry x2 x0 x1 (ix2 r j) = entry (fun j => x0 (ix2 r j)) (fun j => x1 (ix2 r j)) (x2 (ix2 r 0)) j := by
  show Scalar.select (bMask x2 (ix2 r j))
    (x1 (ix2 r j) * Ideal.div (bExp x2 x0 (ix2 r j))
      (broadcastTo S2048x16 (shapeCast S2048x1 (bDen x2 x0) shapeCasts_S2048_S2048x1) broadcasts_S2048x1_S2048x16 (ix2 r j)))
    (Ideal.ofBits .f32 0x00000000#32) = _
  rw [bMask_apply, bExp_apply, broadcastTo_col_apply (by decide), shapeCast_col_apply, bDen_apply, Ideal.ofBits_zero_f32]
  rfl

/-- THE BLOCK'S CONTRIBUTION: the sum of its 2048 rows' losses. -/
theorem blockSum_eq : k0_pay5 (F := Ideal) x2 x0 x1 (ix2 0 0)
    = ∑ r : Fin 2048, rowLoss (fun j => x0 (ix2 r j)) (fun j => x1 (ix2 r j)) (x2 (ix2 r 0)) := by
  rw [pay5_eq, shapeCast_self, shapeCast_one_one_apply]
  refine (colSum_apply (a := 2048) _ _ reduces_S2048x1_S1 _ _).trans ?_
  refine Finset.sum_congr rfl fun r _ => ?_
  rw [shapeCast_col_apply]
  refine (rowSum_apply (a := 2048) (b := 16) (bEntry x2 x0 x1) _ reduces_S2048x16_S2048 _ _ r).trans ?_
  exact Finset.sum_congr rfl fun j _ => bEntry_apply x2 x0 x1 r j

end Stages

/-! ## The accumulator cell -/

/-- The cell the contribution is added into: entry `(0, 0)` of the `[8, 128]` block. -/
theorem cellMask_apply (y : S8x128.Idx) : k0_pay3 y = 1#1 ↔ (y 0).val = 0 ∧ (y 1).val = 0 := by
  have h0 : (y 0).val < 8 := (y 0).isLt
  have h1 : (y 1).val < 128 := (y 1).isLt
  show IntOp.andi (IntOp.cmpi .eq (iota .tc S8x128 32 [0] iota_S8x128_d0_w32 y) 0#32)
    (IntOp.cmpi .eq (iota .tc S8x128 32 [1] iota_S8x128_d1_w32 y) 0#32) = 1#1 ↔ _
  rw [iota_single_apply, iota_single_apply]
  have e0 : (BitVec.ofNat 32 (y 0).val == 0#32) = decide ((y 0).val = 0) := by
    rw [Bool.eq_iff_iff, beq_iff_eq, decide_eq_true_iff, ← BitVec.toNat_inj, BitVec.toNat_ofNat]
    show (y 0).val % 4294967296 = 0 ↔ _
    omega
  have e1 : (BitVec.ofNat 32 (y 1).val == 0#32) = decide ((y 1).val = 0) := by
    rw [Bool.eq_iff_iff, beq_iff_eq, decide_eq_true_iff, ← BitVec.toNat_inj, BitVec.toNat_ofNat]
    show (y 1).val % 4294967296 = 0 ↔ _
    omega
  unfold IntOp.cmpi IntOp.andi
  dsimp only
  rw [e0, e1]
  by_cases a0 : (y 0).val = 0 <;> by_cases a1 : (y 1).val = 0 <;> simp [a0, a1]

/-- The body's update of the accumulator block `acc` by a contribution `s`, at an index: `s` is added at the
    cell, `0` everywhere else. -/
theorem cell_update_apply (acc : Vec Ideal S8x128 .f32) (s : FVec Ideal S1x1 .f32) (y : S8x128.Idx) :
    k0_pay1 (F := Ideal) k0_pay3 (k0_pay4 acc) s y = acc y + Scalar.select (k0_pay3 y) (s (ix2 0 0)) 0 := by
  show shapeCast S8x128 acc shapeCasts_S8x128_S8x128 y
    + Scalar.select (k0_pay3 y) (broadcastTo S8x128 s broadcasts_S1x1_S8x128 y) (Ideal.ofBits .f32 0x00000000#32) = _
  rw [shapeCast_self, broadcastTo_one_one_apply, Ideal.ofBits_zero_f32]

/-- The reset block is zero. -/
theorem reset_apply (y : S8x128.Idx) : k0_pay2 (F := Ideal) y = 0 := Ideal.ofBits_zero_f32

end Cert.KernelIdeal.BlockValue

end
-- ==== Proof.KernelPieces.lean ====
/-
  What each control case of the kernel's body leaves in the accumulator block's staging buffer.

  At the first point of a core (case A) the body stores the zero block, reads it back, and stores it updated by
  the block's contribution; at every later point (case B) it reads what the point before left and stores that
  updated. Both are the same update — the contribution added at cell `(0, 0)` — of the zero block and of the
  carried block.
-/
import proofs.«416202_j58377195487799_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

/-- A later point of a core: the carried block `xo` updated by the contribution of the loaded blocks. -/
theorem out_B (c : Dev nD) (i : grid0.Coords) (a2 : Memref sig .tc .vmem S2048x16 .f32) (h2 : a2.IsWhole)
    (a3 : Memref sig .tc .vmem S2048x16 .f32) (h3 : a3.IsWhole) (a4 : Memref sig .tc .vmem S2048x1 .i32) (h4 : a4.IsWhole)
    (a5 : Memref sig .tc .vmem S8x128 .f32) (h5 : a5.IsWhole) (hc : ¬cond0_0 i)
    (x0 x1 : Vec F S2048x16 .f32) (x2 : Vec F S2048x1 .i32) (xo : Vec F S8x128 .f32) :
    out0_B_3 c i a2 h2 a3 h3 a4 h4 a5 h5 hc x0 x1 x2 xo = k0_pay1 k0_pay3 (k0_pay4 xo) (k0_pay5 x2 x0 x1) := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz]
  simp only [View.readAt_eq_ld, h2.read_unread, h3.read_unread, h4.read_unread, h5.read_unread,
    View.ld_unit_zero (S := S8x128) hz, View.ld_unit_zero (S := S2048x16) hz, View.ld_unit_zero (S := S2048x1) hz]

/-- The first point of a core: the zero block updated by the contribution of the loaded blocks. -/
theorem out_A (c : Dev nD) (i : grid0.Coords) (a2 : Memref sig .tc .vmem S2048x16 .f32) (h2 : a2.IsWhole)
    (a3 : Memref sig .tc .vmem S2048x16 .f32) (h3 : a3.IsWhole) (a4 : Memref sig .tc .vmem S2048x1 .i32) (h4 : a4.IsWhole)
    (a5 : Memref sig .tc .vmem S8x128 .f32) (h5 : a5.IsWhole) (hc : cond0_0 i)
    (x0 x1 : Vec F S2048x16 .f32) (x2 : Vec F S2048x1 .i32) :
    out0_A_3 c i a2 h2 a3 h3 a4 h4 a5 h5 hc x0 x1 x2 = k0_pay1 k0_pay3 (k0_pay4 k0_pay2) (k0_pay5 x2 x0 x1) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread,
    View.ld_unit_zero (S := S2048x16) hz, View.ld_unit_zero (S := S2048x1) hz]

end Cert.KernelIdeal.Pieces

end
-- ==== Proof.KernelValue.lean ====
/-
  The kernel's result as a value: the sum of the 64 block contributions.

  Each core owns one `[8, 128]` block of the `[16, 128]` output and visits 32 consecutive blocks of rows. Its
  accumulator block is reset at the core's first point and updated at every point, so after the core's last
  point it holds, at cell `(0, 0)`, zero plus the sum of the core's 32 contributions, and zero everywhere else
  (`outs_closed`: the fold over the run of points since the reset). That block is written back once, at the
  core's last point, and the two write-backs tile the output (`final_out`). The host then sums the whole
  output: the two cells (`out_total`). A block's contribution is read off the arrays the region finds:
  block `t` of an input window is rows `2048 t … 2048 t + 2047` of its array (`wblk_apply` …).
-/
import proofs.«416202_j58377195487799_3_alg».proof.Proof.KernelBlock
import proofs.«416202_j58377195487799_3_alg».proof.Proof.KernelPieces
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.BlockValue Cert.KernelIdeal.Pieces
open Idealize.ShloMosaic Idealize.ShloMosaic.TcCoe Idealize.SL.Sem Idealize.ShloMosaic.ValueIdx
open Idealize.ShloMosaic.ColumnForms Cert.RowSoftmaxLoss
open Idealize.ShloMosaic.Pipeline (Dat)

variable (m : (ℓ : Loc nD τ sig) → Buf (Elt Ideal) ℓ) (ρ : Dev nD → PrngReg)

/-- The blocks point `t` loads: gathered weights, losses, gathered cardinalities. -/
abbrev wblk (c : Dev nD) (t : Fin cfg0.N) : Vec Ideal S2048x16 .f32 := iblk m c 0 t
abbrev lblk (c : Dev nD) (t : Fin cfg0.N) : Vec Ideal S2048x16 .f32 := iblk m c 1 t
abbrev cblk (c : Dev nD) (t : Fin cfg0.N) : Vec Ideal S2048x1 .i32 := iblk m c 2 t

/-- Point `n`'s contribution: the loss of the block of rows it loads (`0` past the grid, never used). -/
def contrib (c : Dev nD) (n : ℕ) : EReal :=
  if h : n < cfg0.N then k0_pay5 (F := Ideal) (cblk m c ⟨n, h⟩) (wblk m c ⟨n, h⟩) (lblk m c ⟨n, h⟩) (ix2 0 0) else 0

/-- What point `n` adds to the accumulator block at index `y`: its contribution at the cell, `0` elsewhere. -/
def addend (c : Dev nD) (n : ℕ) (y : S8x128.Idx) : EReal := Scalar.select (k0_pay3 y) (contrib m c n) 0

/-- The accumulator block after a core's first point, and the step of a later point. -/
def resetAt (c : Dev nD) (n : ℕ) (h : n < cfg0.N) : Vec Ideal S8x128 .f32 :=
  k0_pay1 k0_pay3 (k0_pay4 k0_pay2) (k0_pay5 (cblk m c ⟨n, h⟩) (wblk m c ⟨n, h⟩) (lblk m c ⟨n, h⟩))
def stepAt (c : Dev nD) (n : ℕ) (h : n < cfg0.N) (acc : Vec Ideal S8x128 .f32) : Vec Ideal S8x128 .f32 :=
  k0_pay1 k0_pay3 (k0_pay4 acc) (k0_pay5 (cblk m c ⟨n, h⟩) (wblk m c ⟨n, h⟩) (lblk m c ⟨n, h⟩))

theorem outs_reset (c : Dev nD) (n : ℕ) (h : n < cfg0.N) (h0 : n % 32 = 0) : outsAt0 m c n h = resetAt m c n h :=
  (outsAt0_A m c ⟨n, h⟩ h0).trans (out_A ..)

theorem outs_step (c : Dev nD) (n : ℕ) (h : n + 1 < cfg0.N) (h0 : ¬(n + 1) % 32 = 0) :
    outsAt0 m c (n + 1) h = stepAt m c (n + 1) h (outsAt0 m c n (Nat.lt_of_succ_lt h)) := by
  rw [outsAt0_B m c ⟨n + 1, h⟩ h0, out_B]
  rfl

/-- THE ACCUMULATOR after point `t`: zero plus the addends of the points since the core's reset. -/
theorem outs_closed (c : Dev nD) (t : ℕ) (ht : t < cfg0.N) (y : S8x128.Idx) :
    outsAt0 m c t ht y = 0 + ∑ s ∈ Finset.range (t % 32 + 1), addend m c (32 * (t / 32) + s) y := by
  have h' : 32 * (t / 32) + t % 32 < cfg0.N := by rw [Nat.div_add_mod]; exact ht
  have hmod : t % 32 ≤ 31 := by have := Nat.mod_lt t (show 0 < 32 by decide); omega
  rw [Pipeline.eq_accAt_of_mod (outsAt0 m c) 32 (resetAt m c) (stepAt m c) (outs_reset m c) (outs_step m c)
    (by decide) t ht h']
  refine Pipeline.accAt_add_apply (resetAt m c) (stepAt m c) (fun _ => 0) (addend m c) (32 * (t / 32)) 31
    (fun h i => ?_) (fun n h acc i _ _ => ?_) (t % 32) hmod h' y
  · unfold resetAt addend contrib
    rw [cell_update_apply, reset_apply, dif_pos h]
  · unfold stepAt addend contrib
    rw [cell_update_apply, dif_pos h]

/-! ## The output array after the run -/

/-- Where the windows' blocks lie: input blocks move one block of rows per point; the output block is the core's. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val / 32 ∧ win0_3.index t (1 : Fin 2) = 0 :=
  (by decide +kernel : ∀ t : Fin grid0.N, _)

/-- A core's accumulator block after its 32 points. -/
def coreBlock (c : Dev nD) (q : ℕ) (y : S8x128.Idx) : EReal := 0 + ∑ s ∈ Finset.range 32, addend m c (32 * q + s) y

/-- The output array: rows `8 q … 8 q + 7` are core `q`'s accumulator block. -/
def outArr (c : Dev nD) : Buf (Elt Ideal) ((c : Thread nD τ).loc main_v15) := fun i =>
  coreBlock m c ((i 0).val / 8)
    (ix2 (⟨(i 0).val % 8, Nat.mod_lt _ (by decide)⟩ : Fin 8) (⟨(i 1).val, (i 1).isLt⟩ : Fin 128))

/-- What a write-back writes is its block of `outArr`. -/
theorem flushed_eq (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  obtain ⟨-, -, -, -, -, -, e0, e1⟩ := idx_facts t
  show (cfg0.win 3).cut (grid0.coords t) ((dats m 0 c).after 3 t) = _
  rw [after0_3]
  funext y
  show outsAt0 m c t.val t.isLt y = outArr m c (((cfg0.win 3).blk t).view.emb y)
  have hy0 : (y 0).val < 8 := (y 0).isLt
  have hy1 : (y 1).val < 128 := (y 1).isLt
  have E0 : ((((cfg0.win 3).blk t).view.emb y) 0).val = win0_3.index t (0 : Fin 2) * 8 + 1 * (y 0).val := rfl
  have E1 : ((((cfg0.win 3).blk t).view.emb y) 1).val = win0_3.index t (1 : Fin 2) * 128 + 1 * (y 1).val := rfl
  rw [outs_closed, h31]
  unfold outArr
  have hq : ((((cfg0.win 3).blk t).view.emb y) 0).val / 8 = t.val / 32 := by rw [E0, e0]; omega
  have hyy : (ix2 (⟨((((cfg0.win 3).blk t).view.emb y) 0).val % 8, Nat.mod_lt _ (by decide)⟩ : Fin 8)
      (⟨((((cfg0.win 3).blk t).view.emb y) 1).val, ((((cfg0.win 3).blk t).view.emb y) 1).isLt⟩ : Fin 128) : S8x128.Idx) = y := by
    funext a
    apply Fin.ext
    match a with
    | ⟨0, _⟩ => show ((((cfg0.win 3).blk t).view.emb y) 0).val % 8 = (y 0).val; rw [E0, e0]; omega
    | ⟨1, _⟩ => show ((((cfg0.win 3).blk t).view.emb y) 1).val = (y 1).val; rw [E1, e1]; omega
  rw [hyy, hq]
  rfl

/-- The two write-backs tile the output: row `a` lies in the block of core `a / 8`, written at its last point. -/
theorem covered (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 16 := (i 0).isLt
  have hi1 : (i 1).val < 128 := (i 1).isLt
  have hN : cfg0.N = 64 := N_0
  let t : Fin cfg0.N := ⟨32 * ((i 0).val / 8) + 31, by rw [hN]; omega⟩
  obtain ⟨-, -, -, -, -, -, e0, e1⟩ := idx_facts t
  have ht : t.val = 32 * ((i 0).val / 8) + 31 := rfl
  refine ⟨t, (flush0_3 t).mpr (by rw [ht]; omega), ?_⟩
  show i ∈ ((View.whole main_v15).slice (win0_3.rect t)).set
  rw [View.set_slice_whole, Rect.mem_set_unit]
  intro a
  match a with
  | ⟨0, _⟩ =>
    show win0_3.index t (0 : Fin 2) * 8 ≤ (i 0).val ∧ (i 0).val < win0_3.index t (0 : Fin 2) * 8 + 8
    rw [e0, ht]; omega
  | ⟨1, _⟩ =>
    show win0_3.index t (1 : Fin 2) * 128 ≤ (i 1).val ∧ (i 1).val < win0_3.index t (1 : Fin 2) * 128 + 128
    rw [e1]; omega

/-- THE OUTPUT ARRAY after the run. -/
theorem final_out (c : Dev nD) : (dats m 0 c).arrAt 3 cfg0.N = outArr m c :=
  (dats m 0 c).arrAt_eq_of_cover 3 (outArr m c) (flushed_eq m c) (covered c)

end Cert.KernelIdeal.HandValue

end
-- ==== Proof.KernelTotal.lean ====
/-
  The kernel's run, read: its result is zero plus the sum of the row losses.

  The host sums the whole `[16, 128]` output. Only two of its entries can be nonzero — the cells `(0, 0)` and
  `(8, 0)`, one per core —, each zero plus the sum of its core's 32 contributions (`out_total`); a contribution
  is the loss of the block of rows its point loads, read off the arrays the region finds (`contrib_eq`); and the
  64 block losses add up to the sum over all rows (`Cert.RowSoftmaxLoss.total_eq_blocks`).
-/
import proofs.«416202_j58377195487799_3_alg».proof.Proof.KernelValue

set_option maxRecDepth 16384

noncomputable section

namespace Cert.KernelIdeal.HandValue

open Cert.KernelIdeal Cert.KernelIdeal.Gen Cert.KernelIdeal.BlockValue Cert.KernelIdeal.Pieces
open Idealize.ShloMosaic Idealize.ShloMosaic.TcCoe Idealize.SL.Sem Idealize.ShloMosaic.ValueIdx
open Idealize.ShloMosaic.ColumnForms Cert.RowSoftmaxLoss
open Idealize.ShloMosaic.Pipeline (Dat)

variable (m : (ℓ : Loc nD τ sig) → Buf (Elt Ideal) ℓ) (ρ : Dev nD → PrngReg)

/-! ## The host's sum of the output -/

/-- After the region the host adds up the output array, from zero. -/
theorem tail_eq (c : Dev nD) :
    (Pipeline.afterTail₀ cfgs (dats m) 0 (V0 m) [hostOps1] c main_v16 : FVec Ideal S_ .f32)
      = Host.reduceAdd (F := Ideal) (outArr m c : FVec Ideal S16x128 .f32) (constant S_ .f32 0x00000000#32)
          reducesTo_S16x128_S_d0_1 h_S_ := by
  unfold Pipeline.afterTail₀
  show StableHlo.after hostOps1 _ (Proc.devRef .tc main_v16) = _
  after_results
  exact congrArg (fun A : FVec Ideal S16x128 .f32 => Host.reduceAdd (F := Ideal) A (constant S_ .f32 0x00000000#32)
      reducesTo_S16x128_S_d0_1 h_S_)
    ((Pipeline.withArrays_arr spec0 launch0.win.arr_inj c _ _ 3).trans (final_out m c))

/-- The output array as a function into the extended reals. -/
abbrev outFn (c : Dev nD) : S16x128.Idx → EReal := outArr m c

theorem addend_cell (c : Dev nD) (n : ℕ) (y : S8x128.Idx) (h0 : (y 0).val = 0) (h1 : (y 1).val = 0) :
    addend m c n y = contrib m c n := by
  unfold addend
  rw [(cellMask_apply y).mpr ⟨h0, h1⟩]
  rfl

theorem addend_off (c : Dev nD) (n : ℕ) (y : S8x128.Idx) (h : ¬((y 0).val = 0 ∧ (y 1).val = 0)) :
    addend m c n y = 0 := by
  unfold addend
  rw [eq_zero_of_ne_one fun e => h ((cellMask_apply y).mp e)]
  rfl

/-- The output at the cell of core `q`: zero plus the core's 32 contributions. -/
theorem outArr_cell (c : Dev nD) (q : ℕ) (hq : 8 * q < 16) :
    outFn m c (ix2 (⟨8 * q, hq⟩ : Fin 16) (0 : Fin 128)) = 0 + ∑ s ∈ Finset.range 32, contrib m c (32 * q + s) := by
  unfold outFn outArr coreBlock
  refine congrArg (0 + ·) (Finset.sum_congr rfl fun s _ => ?_)
  rw [addend_cell m c _ _ (by show (8 * q) % 8 = 0; omega) (by rfl)]
  have e : (8 * q) / 8 = q := by omega
  show contrib m c (32 * ((8 * q) / 8) + s) = _
  rw [e]

/-- The output away from the two cells is zero. -/
theorem outArr_off (c : Dev nD) (i : S16x128.Idx) (h : ¬((i 0).val % 8 = 0 ∧ (i 1).val = 0)) : outFn m c i = 0 := by
  unfold outFn outArr coreBlock
  rw [Finset.sum_eq_zero fun s _ => addend_off m c _ _ h, add_zero]

/-- THE SUM OF THE OUTPUT: the two cells. -/
theorem out_total (c : Dev nD) : ∑ i : S16x128.Idx, outFn m c i
    = (0 + ∑ s ∈ Finset.range 32, contrib m c s) + (0 + ∑ s ∈ Finset.range 32, contrib m c (32 + s)) := by
  have hne : (ix2 (⟨8 * 0, by decide⟩ : Fin 16) (0 : Fin 128) : S16x128.Idx) ≠ ix2 (⟨8 * 1, by decide⟩ : Fin 16) (0 : Fin 128) :=
    fun e => absurd (congrArg (fun i : S16x128.Idx => (i 0).val) e) (by decide)
  rw [sum_eq_two (outFn m c) _ _ hne fun i hp hq => outArr_off m c i fun ⟨h0, h1⟩ => by
    have hi0 : (i 0).val < 16 := (i 0).isLt
    rcases (by omega : (i 0).val = 8 * 0 ∨ (i 0).val = 8 * 1) with e | e
    · exact hp (funext fun a => Fin.ext (by match a with | ⟨0, _⟩ => exact e | ⟨1, _⟩ => exact h1))
    · exact hq (funext fun a => Fin.ext (by match a with | ⟨0, _⟩ => exact e | ⟨1, _⟩ => exact h1))]
  rw [outArr_cell, outArr_cell]
  simp only [Nat.mul_zero, Nat.zero_add, Nat.mul_one]

/-! ## A point's blocks are rows of the arrays the region finds -/

/-- The arrays the region finds: the gathered weights, the losses, the gathered cardinalities (a column). -/
abbrev kW (c : Dev nD) : S131072x16.Idx → EReal := V m c main_v6
abbrev kL (c : Dev nD) : S131072x16.Idx → EReal := V m c main_arg0
abbrev kC (c : Dev nD) (R : Fin 131072) : BitVec 32 := V m c main_v14 (ix2 R 0)

theorem wblk_apply (c : Dev nD) (n : Fin 64) (h : n.val < cfg0.N) (r : Fin 2048) (j : Fin 16) :
    wblk m c ⟨n.val, h⟩ (ix2 r j) = kW m c (ix2 (blockRow n r) j) := by
  obtain ⟨e0, e1, -⟩ := idx_facts ⟨n.val, h⟩
  have e0 : win0_0.index ⟨n.val, h⟩ (0 : Fin 2) = n.val := e0
  unfold wblk iblk
  rw [View.read_apply]
  show V m c main_v6 _ = V m c main_v6 _
  congr 1
  funext a
  apply Fin.ext
  match a with
  | ⟨0, _⟩ => show win0_0.index ⟨n.val, h⟩ (0 : Fin 2) * 2048 + 1 * r.val = 2048 * n.val + r.val; rw [e0]; omega
  | ⟨1, _⟩ => show win0_0.index ⟨n.val, h⟩ (1 : Fin 2) * 16 + 1 * j.val = j.val; rw [e1]; omega

theorem lblk_apply (c : Dev nD) (n : Fin 64) (h : n.val < cfg0.N) (r : Fin 2048) (j : Fin 16) :
    lblk m c ⟨n.val, h⟩ (ix2 r j) = kL m c (ix2 (blockRow n r) j) := by
  obtain ⟨-, -, e0, e1, -⟩ := idx_facts ⟨n.val, h⟩
  have e0 : win0_1.index ⟨n.val, h⟩ (0 : Fin 2) = n.val := e0
  unfold lblk iblk
  rw [View.read_apply]
  show V m c main_arg0 _ = V m c main_arg0 _
  congr 1
  funext a
  apply Fin.ext
  match a with
  | ⟨0, _⟩ => show win0_1.index ⟨n.val, h⟩ (0 : Fin 2) * 2048 + 1 * r.val = 2048 * n.val + r.val; rw [e0]; omega
  | ⟨1, _⟩ => show win0_1.index ⟨n.val, h⟩ (1 : Fin 2) * 16 + 1 * j.val = j.val; rw [e1]; omega

theorem cblk_apply (c : Dev nD) (n : Fin 64) (h : n.val < cfg0.N) (r : Fin 2048) :
    cblk m c ⟨n.val, h⟩ (ix2 r 0) = kC m c (blockRow n r) := by
  obtain ⟨-, -, -, -, e0, e1, -⟩ := idx_facts ⟨n.val, h⟩
  have e0 : win0_2.index ⟨n.val, h⟩ (0 : Fin 2) = n.val := e0
  unfold cblk iblk
  rw [View.read_apply]
  show V m c main_v14 _ = V m c main_v14 _
  congr 1
  funext a
  apply Fin.ext
  match a with
  | ⟨0, _⟩ => show win0_2.index ⟨n.val, h⟩ (0 : Fin 2) * 2048 + 1 * r.val = 2048 * n.val + r.val; rw [e0]; omega
  | ⟨1, _⟩ => show win0_2.index ⟨n.val, h⟩ (1 : Fin 2) * 1 + 1 * 0 = 0; rw [e1]

/-- A point's contribution is the loss of its block of rows. -/
theorem contrib_eq (c : Dev nD) (n : Fin 64) : contrib m c n.val = blockLoss (kW m c) (kL m c) (kC m c) n := by
  have h : n.val < cfg0.N := by rw [show cfg0.N = 64 from N_0]; exact n.isLt
  unfold contrib
  rw [dif_pos h, blockSum_eq]
  unfold blockLoss
  refine Finset.sum_congr rfl fun r _ => ?_
  simp only [wblk_apply, lblk_apply, cblk_apply]

/-! ## The result -/

/-- The host's sum of a `[16, 128]` array from zero, over the extended reals. -/
theorem hostSum_apply (y : FVec Ideal S16x128 .f32) (i : S_.Idx) :
    Host.reduceAdd (F := Ideal) y (constant S_ .f32 0x00000000#32) reducesTo_S16x128_S_d0_1 h_S_ i
      = 0 + ∑ j : S16x128.Idx, y j := by
  simp only [Host.reduceAdd, Ideal.hostReduceAdd_def]
  rw [Ideal.hostReduceAdd_total reducesTo_S16x128_S_d0_1 (fun b => b.elim0)]
  show Ideal.ofBits .f32 0x00000000#32 + _ = _
  rw [Ideal.ofBits_zero_f32]

/-- THE KERNEL'S RESULT: zero plus the sum of the row losses over the arrays the region finds. -/
theorem result_eq (c : Dev nD) (i : S_.Idx) :
    (Pipeline.afterTail₀ cfgs (dats m) 0 (V0 m) [hostOps1] c main_v16 : FVec Ideal S_ .f32) i
      = 0 + total (kW m c) (kL m c) (kC m c) := by
  refine (congrFun (tail_eq m c) i).trans ((hostSum_apply (outFn m c) i).trans ?_)
  rw [out_total, total_eq_blocks]
  simp only [zero_add]
  rw [← Finset.sum_range_add (contrib m c) 32 32]
  show ∑ x ∈ Finset.range 64, contrib m c x = _
  rw [← Fin.sum_univ_eq_sum_range (contrib m c) 64]
  exact Finset.sum_congr rfl fun n _ => contrib_eq m c n

/-- THE RUN, READ: every execution ends with the result at that value and the arguments unchanged. -/
theorem run : θ_run defs (onTc (τ := τ) (main (F := Ideal))) ⟨m, fun _ => 0, ρ⟩ fun r => ∀ c : Dev nD,
      r.2.mem ((c : Thread nD τ).loc main_v16) = (fun _ => 0 + total (kW m c) (kL m c) (kC m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v16 (Pipeline.mem_restRefs_of main_v16 (by decide) (by decide))).trans (funext fun i => result_eq m c i),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HandValue

end
-- ==== Proof.RefValue.lean ====
/-
  The reference's result as a value: minus-infinity masking, a softmax along each row, the loss-weighted sum.

  Read one operation at a time at an index `(R, k)`, the reference's last array before its total sum is the
  slot term `entry` of row `R` (`entry_apply`): the mask compares the lane index with the row's gathered
  cardinality, the masked logits take minus infinity (`⊥`) on the invalid slots, the row maximum is the fold of
  `max` from `⊥` (the extra `max` with minus infinity changes nothing), the denominator is the row's sum of
  shifted exponentials. The result is zero plus the sum of all slot terms: the sum of the row losses
  (`result_eq`). The two gathers stay as they are: both programs gather the same rows from the same tables.
-/
import proofs.«416202_j58377195487799_3_alg».proof.Proof.Gen.ReferenceIdeal.Read
import proofs.«416202_j58377195487799_3_alg».proof.Proof.Spec
import proofs.«416202_j58377195487799_3_alg».proof.Proof.LibColumn

noncomputable section

namespace Cert.ReferenceIdeal.RefValue

open Cert.ReferenceIdeal Cert.ReferenceIdeal.Gen Cert.ReferenceIdeal.Read
open Idealize.ShloMosaic Idealize.ShloMosaic.ValueIdx Idealize.ShloMosaic.ColumnForms Cert.RowSoftmaxLoss

variable (x0 : (⟨S131072x16, .f32⟩ : BufTy).Contents (Elt Ideal)) (x1 : (⟨S131072, .i32⟩ : BufTy).Contents (Elt Ideal))
  (x2 : (⟨S1000000x16, .f32⟩ : BufTy).Contents (Elt Ideal)) (x3 : (⟨S1000000, .i32⟩ : BufTy).Contents (Elt Ideal))

/-- The gathered weight rows and the gathered cardinalities. -/
abbrev gW : S131072x16.Idx → EReal := val_main_v6 (F := Ideal) x1 x2
abbrev gC (R : Fin 131072) : BitVec 32 := val_main_v13 (F := Ideal) x1 x3 (ix1 R)

/-- A keepdims column broadcast back along the rows reads the column's row. -/
theorem col_idx (R : Fin 131072) (k : Fin 16) : idx_main_v16 (idx_main_v18 (ix2 R k)) = ix1 R :=
  funext fun a => Fin.ext (by match a with | ⟨0, _⟩ => rfl)
theorem col_idx_max (R : Fin 131072) (k : Fin 16) : idx_main_v24 (idx_main_v25 (ix2 R k)) = ix1 R :=
  funext fun a => Fin.ext (by match a with | ⟨0, _⟩ => rfl)
theorem col_idx_den (R : Fin 131072) (k : Fin 16) : idx_main_v29 (idx_main_v30 (ix2 R k)) = ix1 R :=
  funext fun a => Fin.ext (by match a with | ⟨0, _⟩ => rfl)
theorem row_idx (R : Fin 131072) (k : Fin 16) : idx_main_v28 (ix1 R) k = ix2 R k :=
  funext fun a => Fin.ext (by match a with | ⟨0, _⟩ => rfl | ⟨1, _⟩ => rfl)

theorem mask_apply (R : Fin 131072) (k : Fin 16) :
    val_main_v19 (F := Ideal) x1 x3 (ix2 R k) = valid (gC x1 x3 R) k := by
  rw [val_main_v19_apply, val_main_v17_apply, val_main_v15_apply, val_main_v14_apply, val_main_v18_apply,
    val_main_v16_apply, col_idx]
  rfl

theorem logit_apply (R : Fin 131072) (k : Fin 16) :
    val_main_v20 (F := Ideal) x1 x2 x3 (ix2 R k) = logit (fun j => gW x1 x2 (ix2 R j)) (gC x1 x3 R) k := by
  rw [val_main_v20_apply, mask_apply, val_main_call0_v1_apply, val_main_call0_v0_apply, val_main_cst_apply]
  show Scalar.select _ _ (Ideal.ofBits .f32 0xFF800000#32) = _
  rw [ofBits_neg_inf]
  rfl

theorem max_apply (R : Fin 131072) :
    val_main_v23 (F := Ideal) x1 x2 x3 (ix1 R) = rowMax (fun j => gW x1 x2 (ix2 R j)) (gC x1 x3 R) := by
  rw [val_main_v23_apply, val_main_v22_apply, val_main_cst_4_apply]
  show max (Ideal.ofBits .f32 0xFF800000#32) (val_main_v21 (F := Ideal) x1 x2 x3 (ix1 R)) = _
  rw [ofBits_neg_inf, max_eq_right bot_le]
  unfold val_main_v21
  refine (hostRowMax_apply (a := 131072) (b := 16) _ _ reducesTo_S131072x16_S131072_d1 (by decide) h_S_ R).trans ?_
  rw [val_main_cst_3_apply]
  show Finset.fold max (Ideal.ofBits .f32 0xFF800000#32) _ _ = _
  rw [ofBits_neg_inf]
  unfold rowMax
  exact congrArg (Finset.fold max _ · Finset.univ) (funext fun j => logit_apply x1 x2 x3 R j)

theorem expo_apply (R : Fin 131072) (k : Fin 16) :
    val_main_v27 (F := Ideal) x1 x2 x3 (ix2 R k) = expo (fun j => gW x1 x2 (ix2 R j)) (gC x1 x3 R) k := by
  rw [val_main_v27_apply, val_main_v26_apply, logit_apply, val_main_v25_apply, val_main_v24_apply, col_idx_max, max_apply]
  rfl

theorem denom_apply (R : Fin 131072) :
    val_main_v28 (F := Ideal) x1 x2 x3 (ix1 R) = denom (fun j => gW x1 x2 (ix2 R j)) (gC x1 x3 R) := by
  rw [val_main_v28_apply, val_main_cst_5_apply]
  show Ideal.ofBits .f32 0x00000000#32 + _ = _
  rw [Ideal.ofBits_zero_f32, zero_add]
  unfold denom
  exact Finset.sum_congr rfl fun k _ => by rw [row_idx, expo_apply]

/-- THE SLOT TERM: the reference's last array at `(R, k)`. -/
theorem entry_apply (R : Fin 131072) (k : Fin 16) :
    val_main_v33 (F := Ideal) x0 x1 x2 x3 (ix2 R k)
      = entry (fun j => gW x1 x2 (ix2 R j)) (fun j => x0 (ix2 R j)) (gC x1 x3 R) k := by
  rw [val_main_v33_apply, mask_apply, val_main_v32_apply, val_main_v31_apply, expo_apply, val_main_v30_apply,
    val_main_v29_apply, col_idx_den, denom_apply, val_main_call1_v1_apply, val_main_call1_v0_apply, val_main_cst_6_apply]
  show Scalar.select _ (x0 (ix2 R k) * Ideal.div _ _) (Ideal.ofBits .f32 0x00000000#32) = _
  rw [Ideal.ofBits_zero_f32]
  rfl

/-- THE REFERENCE'S RESULT: zero plus the sum of the row losses. -/
theorem result_eq (i : S_.Idx) :
    val_main_v34 (F := Ideal) x0 x1 x2 x3 i = 0 + total (gW x1 x2) x0 (gC x1 x3) := by
  rw [val_main_v34_apply, val_main_cst_7_apply]
  show Ideal.ofBits .f32 0x00000000#32 + _ = _
  rw [Ideal.ofBits_zero_f32, sum_idx2]
  unfold total rowLoss
  exact congrArg (0 + ·) (Finset.sum_congr rfl fun R _ => Finset.sum_congr rfl fun k _ => entry_apply x0 x1 x2 x3 R k)

end Cert.ReferenceIdeal.RefValue

end
-- ==== Proof.Bridge.lean ====
/-
  Both programs gather the same rows: the arrays the kernel's region finds are the reference's gathered arrays.

  Before its region the kernel's host code normalises the row indices (a negative index counts from the end) and
  gathers the weight rows and the cardinalities exactly as the reference does; the cardinalities are then laid
  out as a column, whose row `R` is the gathered vector's entry `R`.
-/
import proofs.«416202_j58377195487799_3_alg».proof.Proof.KernelTotal
import proofs.«416202_j58377195487799_3_alg».proof.Proof.RefValue

set_option maxRecDepth 16384

noncomputable section

namespace Cert.Bridge

open Idealize.ShloMosaic Idealize.ShloMosaic.TcCoe Idealize.SL.Sem Idealize.ShloMosaic.ValueIdx
open Idealize.ShloMosaic.ColumnForms Cert.RowSoftmaxLoss
open Cert.KernelIdeal Cert.KernelIdeal.Gen Cert.KernelIdeal.HandValue

variable (m : (ℓ : Loc nD τ sig) → Buf (Elt Ideal) ℓ)

/-- The gathered weight rows. -/
theorem kW_eq (c : Dev nD) : kW m c
    = Cert.ReferenceIdeal.RefValue.gW (m ((c : Thread nD τ).loc main_arg1)) (m ((c : Thread nD τ).loc main_arg2)) := by
  show StableHlo.after hostOps0 (fun b => m (c, b)) (Proc.devRef .tc main_v6) = _
  after_results
  rfl

/-- The losses are the first argument, untouched. -/
theorem kL_eq (c : Dev nD) : kL m c = m ((c : Thread nD τ).loc main_arg0) := V_main_arg0 m c

/-- The gathered cardinalities, read off the column. -/
theorem kC_eq (c : Dev nD) : kC m c
    = Cert.ReferenceIdeal.RefValue.gC (m ((c : Thread nD τ).loc main_arg1)) (m ((c : Thread nD τ).loc main_arg3)) := by
  have e : (V m c main_v14 : S131072x1.Idx → BitVec 32)
      = shapeCast S131072x1 (Cert.ReferenceIdeal.Read.val_main_v13 (F := Ideal) (m ((c : Thread nD τ).loc main_arg1))
          (m ((c : Thread nD τ).loc main_arg3))) shapeCasts_S131072_S131072x1 := by
    show StableHlo.after hostOps0 (fun b => m (c, b)) (Proc.devRef .tc main_v14) = _
    after_results
    rfl
  funext R
  show V m c main_v14 (ix2 R 0) = _
  rw [e, shapeCast_col_apply]

end Cert.Bridge

end
-- ==== Proof.lean ====
/-
  A masked-softmax weighted loss: for each of 131072 rows, gather a row of sixteen weights and a cardinality by
  the row's example index, take the softmax of the weights over the first `cardinality` slots (the other slots
  at minus infinity), and sum the per-slot losses times those softmax weights; the result is the sum over all rows.

  The kernel gathers on the host as the reference does, then streams 64 blocks of 2048 rows through a grid of
  two cores by 32 steps, each core adding its blocks' losses into one cell of its own `[8, 128]` output block;
  the host adds the output up. The reference masks, normalises and sums the whole `[131072, 16]` array at once.

  Over the extended reals both are zero plus `∑ R, rowLoss (row R)`:
    * per slot the two programs apply the same operations — the kernel's mask fill is named minus infinity, the
      reference's is minus infinity; the reference's extra `max` of the row maximum with minus infinity is the
      identity; exp, quotient, product and select are one function on both sides;
    * the kernel's grouping of the total (lanes, then rows of a block, then the blocks of a core, then the two
      cores, with zeros added along the way) and the reference's single sum differ only by commutativity and
      associativity of addition, which hold on all of the extended reals: no finiteness is used.
  The three frames are the generated ones (the reference's is its generated run with the result dropped), and
  the idealization's one ledger entry is the table lookup of the named constant.
-/
import proofs.«416202_j58377195487799_3_alg».proof.Defs
import proofs.«416202_j58377195487799_3_alg».proof.Proof.Gen.Kernel
import proofs.«416202_j58377195487799_3_alg».proof.Proof.Gen.Kernel.Skeleton
import proofs.«416202_j58377195487799_3_alg».proof.Proof.Gen.Kernel.Launch
import proofs.«416202_j58377195487799_3_alg».proof.Proof.Gen.Kernel.Points
import proofs.«416202_j58377195487799_3_alg».proof.Proof.Gen.Kernel.Frame
import proofs.«416202_j58377195487799_3_alg».proof.Proof.Gen.KernelIdeal
import proofs.«416202_j58377195487799_3_alg».proof.Proof.Gen.KernelIdeal.Skeleton
import proofs.«416202_j58377195487799_3_alg».proof.Proof.Gen.KernelIdeal.Launch
import proofs.«416202_j58377195487799_3_alg».proof.Proof.Gen.KernelIdeal.Points
import proofs.«416202_j58377195487799_3_alg».proof.Proof.Gen.KernelIdeal.Frame
import proofs.«416202_j58377195487799_3_alg».proof.Proof.Gen.ReferenceIdeal
import proofs.«416202_j58377195487799_3_alg».proof.Proof.Gen.ReferenceIdeal.Run
import proofs.«416202_j58377195487799_3_alg».proof.Proof.Gen.ReferenceIdeal.Read
import proofs.«416202_j58377195487799_3_alg».proof.Proof.Gen.Pre_finite_inputs
import proofs.«416202_j58377195487799_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask fill's name denotes minus infinity in the certificate's table. -/
theorem preserves : Cert.preserves_Kernel_KernelIdeal :=
  IdealRules.named_const.statement Cert.KernelIdeal.κ "neg_big" .f32 0xFF333332#32 ⊥ rfl

/-- Both programs end at zero plus the sum of the row losses of the same gathered rows. -/
theorem algebraic : Cert.algebraic_KernelIdeal_ReferenceIdeal := by
  intro m ρ m' ρ' _ hagree
  refine ⟨fun c => fun _ => 0 + Cert.RowSoftmaxLoss.total (Cert.KernelIdeal.HandValue.kW m c)
      (Cert.KernelIdeal.HandValue.kL m c) (Cert.KernelIdeal.HandValue.kC m c),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq]
  funext i
  rw [Cert.ReferenceIdeal.RefValue.result_eq, (hagree c).1, (hagree c).2.1, (hagree c).2.2.1, (hagree c).2.2.2]
  show _ = 0 + Cert.RowSoftmaxLoss.total (Cert.KernelIdeal.HandValue.kW m c) (Cert.KernelIdeal.HandValue.kL m c)
    (Cert.KernelIdeal.HandValue.kC m c)
  rw [Cert.Bridge.kW_eq, Cert.Bridge.kL_eq, Cert.Bridge.kC_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
